-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S32000x16 : S_.BroadcastsInDim S32000x16 (![] : Fin 0 → Fin S32000x16.rank)
  reducesTo_S32000x16_S_d0_1 : S32000x16.ReducesTo [0, 1] S_

variable [Facts]

def fn_part1 {F : FTy → Type} [FloatOps F] (main_v13 : IVec S_ 1) (main_v16 : IVec S32000x16 1) : IVec S_ 1 :=
  let main_c_5 : IVec S_ 1 := constantI S_ 1 1#1
  let main_v17 : IVec S_ 1 := (fun x v => Host.reduce IntOp.andi x v reducesTo_S32000x16_S_d0_1 h_S_) main_v16 main_c_5
  let main_v18 : IVec S_ 1 := andi main_v13 main_v17
  main_v18

def fn {F : FTy → Type} [FloatOps F] (main_arg0 : FVec F S2048x4096 .f32) (main_arg1 : FVec F S32000x4096 .f32) (main_arg2 : FVec F S16x4096 .f32) (main_arg3 : FVec F S32000x16 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S32000x16 .f32 := Host.absf main_arg3
  let main_cst_4 : FVec F S_ .f32 := constant S_ .f32 0x7F800000#32
  let main_v15 : FVec F S32000x16 .f32 := broadcastInDim S32000x16 ![] bcast_S_S32000x16 main_cst_4
  let main_v16 : IVec S32000x16 1 := cmpf .olt main_v14 main_v15
  fn_part1 (F := F) main_v13 main_v16
-- ==== Kernel.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S2048x32000 : Shape := ⟨2, ![2048, 32000]⟩
abbrev S256x4096 : Shape := ⟨2, ![256, 4096]⟩
abbrev S640x4096 : Shape := ⟨2, ![640, 4096]⟩
abbrev S640x16 : Shape := ⟨2, ![640, 16]⟩
abbrev S256x640 : Shape := ⟨2, ![256, 640]⟩
abbrev S4096x640 : Shape := ⟨2, ![4096, 640]⟩
abbrev S4096x16 : Shape := ⟨2, ![4096, 16]⟩
abbrev S256x16 : Shape := ⟨2, ![256, 16]⟩
abbrev S16x640 : Shape := ⟨2, ![16, 640]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S16x4096, .f32⟩
  | .hbm, ⟨3, _⟩ => ⟨S32000x16, .f32⟩
  | .hbm, ⟨4, _⟩ => ⟨S2048x32000, .f32⟩
  | .local _ .vmem, ⟨0, _⟩ => ⟨S256x4096, .f32⟩
  | .local _ .vmem, ⟨1, _⟩ => ⟨S256x4096, .f32⟩
  | .local _ .vmem, ⟨2, _⟩ => ⟨S640x4096, .f32⟩
  | .local _ .vmem, ⟨3, _⟩ => ⟨S640x4096, .f32⟩
  | .local _ .vmem, ⟨4, _⟩ => ⟨S16x4096, .f32⟩
  | .local _ .vmem, ⟨5, _⟩ => ⟨S640x16, .f32⟩
  | .local _ .vmem, ⟨6, _⟩ => ⟨S640x16, .f32⟩
  | .local _ .vmem, ⟨7, _⟩ => ⟨S256x640, .f32⟩
  | .local _ .vmem, ⟨8, _⟩ => ⟨S256x640, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![50, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S640x4096_S640x4096_0_0 : ∀ a, (![0, 0] : Fin 2 → Nat) a + S640x4096.size a ≤ S640x4096.size a
  h_S640x4096 : 0 < S640x4096.numel
  inb_S16x4096_S16x4096_0_0 : ∀ a, (![0, 0] : Fin 2 → Nat) a + S16x4096.size a ≤ S16x4096.size a
  h_S16x4096 : 0 < S16x4096.numel
  inb_S640x16_S640x16_0_0 : ∀ a, (![0, 0] : Fin 2 → Nat) a + S640x16.size a ≤ S640x16.size a
  h_S640x16 : 0 < S640x16.numel
  transposes_S640x4096_p1_0_S4096x640 : S640x4096.Transposes [1, 0] S4096x640
  transposes_S16x4096_p1_0_S4096x16 : S16x4096.Transposes [1, 0] S4096x16
  transposes_S640x16_p1_0_S16x640 : S640x16.Transposes [1, 0] S16x640
  inb_S256x640_S256x640_0_0 : ∀ a, (![0, 0] : Fin 2 → Nat) a + S256x640.size a ≤ S256x640.size a
  h_S256x640 : 0 < S256x640.numel
  dot_S256x4096_S4096x640_S256x640_1_0_0_1_n_n_wf : DotDims.WF S256x4096 S4096x640 S256x640 [1] [0] [0] [1] [] []
  dot_S256x4096_S4096x16_S256x16_1_0_0_1_n_n_wf : DotDims.WF S256x4096 S4096x16 S256x16 [1] [0] [0] [1] [] []
  dot_S256x16_S16x640_S256x640_1_0_0_1_n_n_wf : DotDims.WF S256x16 S16x640 S256x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .f32 = 32 ∨ (Rect.block (s := S32000x4096) S640x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x16.size a ≤ S32000x16.size a
  hwx0_3 : ∀ i : grid0.Coords, EltTy.bits .f32 = 32 ∨ (Rect.block (s := S32000x16) S640x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x640.size a ≤ S2048x32000.size a
  hwx0_4 : ∀ i : grid0.Coords, EltTy.bits .f32 = 32 ∨ (Rect.block (s := S2048x32000) S256x640.size (cc0_transform_4 i) (hinb0_4 i)).WholeWords (EltTy.packing .f32)

variable [Facts₀]

def dot_S256x4096_S4096x640_S256x640_1_0_0_1_n_n : DotDims S256x4096 S4096x640 S256x640 where
  lhsContracting := [1]
  rhsContracting := [0]
  lhsNonContracting := [0]
  rhsNonContracting := [1]
  lhsBatch := []
  rhsBatch := []
  wf := dot_S256x4096_S4096x640_S256x640_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x640_S256x640_1_0_0_1_n_n : DotDims S256x16 S16x640 S256x640 where
  lhsContracting := [1]
  rhsContracting := [0]
  lhsNonContracting := [0]
  rhsNonContracting := [1]
  lhsBatch := []
  rhsBatch := []
  wf := dot_S256x16_S16x640_S256x640_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S2048x32000 : Shape := ⟨2, ![2048, 32000]⟩
abbrev S2048x16 : Shape := ⟨2, ![2048, 16]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S16x4096, .f32⟩
  | .hbm, ⟨3, _⟩ => ⟨S32000x16, .f32⟩
  | .hbm, ⟨4, _⟩ => ⟨S2048x32000, .f32⟩
  | .hbm, ⟨5, _⟩ => ⟨S2048x16, .f32⟩
  | .hbm, ⟨6, _⟩ => ⟨S2048x32000, .f32⟩
  | .hbm, ⟨7, _⟩ => ⟨S2048x32000, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S2048x4096_S32000x4096_S2048x32000_1_1_0_0_n_n_wf : DotDims.WF S2048x4096 S32000x4096 S2048x32000 [1] [1] [0] [0] [] []
  dot_S2048x4096_S16x4096_S2048x16_1_1_0_0_n_n_wf : DotDims.WF S2048x4096 S16x4096 S2048x16 [1] [1] [0] [0] [] []
  dot_S2048x16_S32000x16_S2048x32000_1_1_0_0_n_n_wf : DotDims.WF S2048x16 S32000x16 S2048x32000 [1] [1] [0] [0] [] []

variable [Facts₀]

def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf
def dot_S2048x4096_S16x4096_S2048x16_1_1_0_0_n_n : DotDims S2048x4096 S16x4096 S2048x16 where
  lhsContracting := [1]
  rhsContracting := [1]
  lhsNonContracting := [0]
  rhsNonContracting := [0]
  lhsBatch := []
  rhsBatch := []
  wf := dot_S2048x4096_S16x4096_S2048x16_1_1_0_0_n_n_wf
def dot_S2048x16_S32000x16_S2048x32000_1_1_0_0_n_n : DotDims S2048x16 S32000x16 S2048x32000 where
  lhsContracting := [1]
  rhsContracting := [1]
  lhsNonContracting := [0]
  rhsNonContracting := [0]
  lhsBatch := []
  rhsBatch := []
  wf := dot_S2048x16_S32000x16_S2048x32000_1_1_0_0_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Payload.lean ====
import proofs.«133067_j53128745452281_1_alg».proof.Proof.Gen.KernelIdeal.Skeleton
import proofs.«133067_j53128745452281_1_alg».proof.Proof.LibContract
import Idealize.ShloMosaic.Lib.ValueLayout
import Idealize.ShloMosaic.Lib.ValueIdx

/-!
# What the kernel body stores, read at an entry

The body loads a [256, 4096] block `x` of hidden states, a [640, 4096] block `w` of the head, the whole [16, 4096] `a`
and a [640, 16] block `b`, and stores `x · wᵀ + (x · aᵀ) · bᵀ`: three contractions into zero and one addition, the
right operands transposed first. A change of float format is the identity on the extended reals, so entry `(p, q)` is
`∑ d, x[p, d] · w[q, d] + ∑ r, (∑ d, x[p, d] · a[r, d]) · b[q, r]`.
-/

noncomputable section

namespace Cert.LmHead

open Cert.KernelIdeal Cert.KernelIdeal.Gen Idealize.ShloMosaic Idealize.ShloMosaic.ValueIdx

theorem dot_base_eq : dot_S256x4096_S4096x640_S256x640_1_0_0_1_n_n = DotDims.plain 256 4096 640 := rfl
theorem dot_proj_eq : dot_S256x4096_S4096x16_S256x16_1_0_0_1_n_n = DotDims.plain 256 4096 16 := rfl
theorem dot_corr_eq : dot_S256x16_S16x640_S256x640_1_0_0_1_n_n = DotDims.plain 256 16 640 := rfl

/-- The stored block at entry `(p, q)`. -/
theorem payload_apply (x : Vec Ideal S256x4096 .f32) (w : Vec Ideal S640x4096 .f32) (a : Vec Ideal S16x4096 .f32)
    (b : Vec Ideal S640x16 .f32) (p : Fin 256) (q : Fin 640) :
    k0_pay1 (F := Ideal) x w a b (ix2 p q)
      = (∑ d : Fin 4096, x (ix2 p d) * w (ix2 q d))
        + ∑ r : Fin 16, (∑ d : Fin 4096, x (ix2 p d) * a (ix2 r d)) * b (ix2 q r) := by
  unfold k0_pay1
  dsimp only
  rw [dot_base_eq, dot_proj_eq, dot_corr_eq, addf_apply,
    Cert.LibDense.matmul_plain_zero_apply 256 4096 640, Cert.LibDense.matmul_plain_zero_apply 256 16 640]
  refine congrArg₂ (· + ·) (Finset.sum_congr rfl fun d _ => ?_) (Finset.sum_congr rfl fun r _ => ?_)
  · rw [truncf_apply, transpose_ix2_apply, truncf_apply]
  · rw [truncf_apply, Cert.LibDense.matmul_plain_zero_apply 256 4096 16, transpose_ix2_apply, truncf_apply]
    refine congrArg₂ (· * ·) (Finset.sum_congr rfl fun d _ => ?_) rfl
    rw [truncf_apply, transpose_ix2_apply, truncf_apply]

end Cert.LmHead

end
-- ==== Proof.Spec.lean ====
import Idealize.ShloMosaic.PureOps.Ideal.Laws
import Idealize.ShloMosaic.Lib.ValueIdx

/-!
# The logits of a vocabulary head with a low-rank correction, on the extended reals

For hidden states `h : [2048, 4096]`, a head `W : [32000, 4096]` and a rank-16 pair `A : [16, 4096]`, `B : [32000, 16]`
the logit of row `n` at vocabulary entry `v` is

  `∑ d, h[n, d] · W[v, d]  +  ∑ r, (∑ d, h[n, d] · A[r, d]) · B[v, r]`.

Both programs compute exactly this expression, with this grouping: the base product, the projection of the row onto
the 16 directions of `A`, that projection against row `v` of `B`, and one addition. No law of the extended reals beyond
reading each product as its sum is needed, so the inputs' finiteness is never used.
-/

noncomputable section

namespace Cert.LmHead

open Idealize.ShloMosaic Idealize.ShloMosaic.ValueIdx

/-- The logit at row `n`, vocabulary entry `v`. -/
def entry (h : FVec Ideal (⟨2, ![2048, 4096]⟩ : Shape) .f32) (w : FVec Ideal (⟨2, ![32000, 4096]⟩ : Shape) .f32)
    (a : FVec Ideal (⟨2, ![16, 4096]⟩ : Shape) .f32) (b : FVec Ideal (⟨2, ![32000, 16]⟩ : Shape) .f32)
    (n : Fin 2048) (v : Fin 32000) : Ideal .f32 :=
  (∑ d : Fin 4096, h (ix2 n d) * w (ix2 v d))
    + ∑ r : Fin 16, (∑ d : Fin 4096, h (ix2 n d) * a (ix2 r d)) * b (ix2 v r)

/-- The whole array of logits. -/
def logits (h : FVec Ideal (⟨2, ![2048, 4096]⟩ : Shape) .f32) (w : FVec Ideal (⟨2, ![32000, 4096]⟩ : Shape) .f32)
    (a : FVec Ideal (⟨2, ![16, 4096]⟩ : Shape) .f32) (b : FVec Ideal (⟨2, ![32000, 16]⟩ : Shape) .f32) :
    FVec Ideal (⟨2, ![2048, 32000]⟩ : Shape) .f32 :=
  fun i => entry h w a b (i 0) (i 1)

theorem logits_apply (h : FVec Ideal (⟨2, ![2048, 4096]⟩ : Shape) .f32) (w : FVec Ideal (⟨2, ![32000, 4096]⟩ : Shape) .f32)
    (a : FVec Ideal (⟨2, ![16, 4096]⟩ : Shape) .f32) (b : FVec Ideal (⟨2, ![32000, 16]⟩ : Shape) .f32)
    (i : (⟨2, ![2048, 32000]⟩ : Shape).Idx) : logits h w a b i = entry h w a b (i 0) (i 1) := rfl

end Cert.LmHead

end
-- ==== Proof.Blocks.lean ====
import proofs.«133067_j53128745452281_1_alg».proof.Proof.Gen.KernelIdeal.Value
import proofs.«133067_j53128745452281_1_alg».proof.Proof.Payload
import proofs.«133067_j53128745452281_1_alg».proof.Proof.Spec
import Idealize.ShloMosaic.Lib.Pipeline.Value

/-!
# From the kernel's blocks to the array of logits

The grid has 50 × 8 points; point `t` is vocabulary tile `t / 8` and row tile `t % 8`. There the body sees rows
`256·(t % 8) …` of the hidden states, rows `640·(t / 8) …` of the head and of `B`, and all of `A`, and its result is written
to rows `256·(t % 8) …`, columns `640·(t / 8) …` of the output. Entry `(p, q)` of what the body stores is the logit of row
`256·(t % 8) + p` at vocabulary entry `640·(t / 8) + q`, so every point writes its block of ONE array, the logits; the 400
blocks tile [2048, 32000] (the point that covers `(n, v)` is `8·(v / 640) + n / 256`), so the output ends as the logits.
-/

noncomputable section

namespace Cert.LmHead

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The block indices of the five windows at point `t`: the output's block is (row tile, vocabulary tile) = (`t % 8`,
    `t / 8`); the hidden states move with the row tile, the head and `B` with the vocabulary tile, `A` stays. -/
theorem tile_of_point : ∀ t : Fin cfg0.N,
    win0_4.index t (0 : Fin 2) = t.val % 8 ∧ win0_4.index t (1 : Fin 2) = t.val / 8
    ∧ win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-! ## Each input block as rows of its argument -/

/-- The hidden-state block at point `t`: row `p` of the block is row `n` of the array when `n = 256·tile + p`. -/
theorem hidden_block (c : Dev nD) (t : Fin cfg0.N) (p : Fin 256) (d : Fin 4096) (n : Fin 2048)
    (hn : n.val = win0_0.index t (0 : Fin 2) * 256 + p.val) (h1 : win0_0.index t (1 : Fin 2) = 0) :
    (iblk m c 0 t : Vec Ideal S256x4096 .f32) (ix2 p d) = (V m c main_arg0 : FVec Ideal S2048x4096 .f32) (ix2 n d) := by
  show V m c main_arg0 (((cfg0.win 0).blk t).view.emb (ix2 p d)) = _
  refine congrArg (V m c main_arg0) (funext fun a => Fin.ext ?_)
  match a with
  | ⟨0, _⟩ => show win0_0.index t (0 : Fin 2) * 256 + 1 * p.val = n.val; omega
  | ⟨1, _⟩ => show win0_0.index t (1 : Fin 2) * 4096 + 1 * d.val = d.val; omega

/-- The head's block at point `t`: row `q` of the block is row `v` of the array when `v = 640·tile + q`. -/
theorem head_block (c : Dev nD) (t : Fin cfg0.N) (q : Fin 640) (d : Fin 4096) (v : Fin 32000)
    (hv : v.val = win0_1.index t (0 : Fin 2) * 640 + q.val) (h1 : win0_1.index t (1 : Fin 2) = 0) :
    (iblk m c 1 t : Vec Ideal S640x4096 .f32) (ix2 q d) = (V m c main_arg1 : FVec Ideal S32000x4096 .f32) (ix2 v d) := by
  show V m c main_arg1 (((cfg0.win 1).blk t).view.emb (ix2 q d)) = _
  refine congrArg (V m c main_arg1) (funext fun a => Fin.ext ?_)
  match a with
  | ⟨0, _⟩ => show win0_1.index t (0 : Fin 2) * 640 + 1 * q.val = v.val; omega
  | ⟨1, _⟩ => show win0_1.index t (1 : Fin 2) * 4096 + 1 * d.val = d.val; omega

/-- The block of `A` at every point is `A`. -/
theorem lowrank_block (c : Dev nD) (t : Fin cfg0.N) (r : Fin 16) (d : Fin 4096)
    (h0 : win0_2.index t (0 : Fin 2) = 0) (h1 : win0_2.index t (1 : Fin 2) = 0) :
    (iblk m c 2 t : Vec Ideal S16x4096 .f32) (ix2 r d) = (V m c main_arg2 : FVec Ideal S16x4096 .f32) (ix2 r d) := by
  show V m c main_arg2 (((cfg0.win 2).blk t).view.emb (ix2 r d)) = _
  refine congrArg (V m c main_arg2) (funext fun a => Fin.ext ?_)
  match a with
  | ⟨0, _⟩ => show win0_2.index t (0 : Fin 2) * 16 + 1 * r.val = r.val; omega
  | ⟨1, _⟩ => show win0_2.index t (1 : Fin 2) * 4096 + 1 * d.val = d.val; omega

/-- The block of `B` at point `t`: row `q` of the block is row `v` of the array when `v = 640·tile + q`. -/
theorem expand_block (c : Dev nD) (t : Fin cfg0.N) (q : Fin 640) (r : Fin 16) (v : Fin 32000)
    (hv : v.val = win0_3.index t (0 : Fin 2) * 640 + q.val) (h1 : win0_3.index t (1 : Fin 2) = 0) :
    (iblk m c 3 t : Vec Ideal S640x16 .f32) (ix2 q r) = (V m c main_arg3 : FVec Ideal S32000x16 .f32) (ix2 v r) := by
  show V m c main_arg3 (((cfg0.win 3).blk t).view.emb (ix2 q r)) = _
  refine congrArg (V m c main_arg3) (funext fun a => Fin.ext ?_)
  match a with
  | ⟨0, _⟩ => show win0_3.index t (0 : Fin 2) * 640 + 1 * q.val = v.val; omega
  | ⟨1, _⟩ => show win0_3.index t (1 : Fin 2) * 16 + 1 * r.val = r.val; omega

/-! ## What a point writes back -/

/-- The stored block at any entry of the block (the coordinates read off the index). -/
theorem payload_at (x : Vec Ideal S256x4096 .f32) (w : Vec Ideal S640x4096 .f32) (a : Vec Ideal S16x4096 .f32)
    (b : Vec Ideal S640x16 .f32) (j : S256x640.Idx) :
    k0_pay1 (F := Ideal) x w a b j
      = (∑ d : Fin 4096, x (ix2 (j 0) d) * w (ix2 (j 1) d))
        + ∑ r : Fin 16, (∑ d : Fin 4096, x (ix2 (j 0) d) * a (ix2 r d)) * b (ix2 (j 1) r) := by
  exact (congrArg (k0_pay1 (F := Ideal) x w a b) (eq_ix2 j)).trans (payload_apply x w a b (j 0) (j 1))

/-- Point `t` writes back block `t` of the logits of the argument arrays. -/
theorem flushed_eq (c : Dev nD) (t : Fin cfg0.N) :
    (dats m 0 c).flushed 4 t = ((cfg0.win 4).blk t).view.read (Elt Ideal)
      (logits (V m c main_arg0) (V m c main_arg1) (V m c main_arg2) (V m c main_arg3)) := by
  rw [flushed4]
  unfold out0_4
  rw [View.canon_unit_zero offsets_zero]
  simp only [View.ld_unit_zero (S := S256x4096) offsets_zero, View.ld_unit_zero (S := S640x4096) offsets_zero,
    View.ld_unit_zero (S := S16x4096) offsets_zero, View.ld_unit_zero (S := S640x16) offsets_zero]
  obtain ⟨o0, o1, h0, h1, w0, w1, a0, a1, b0, b1⟩ := tile_of_point t
  funext j
  show k0_pay1 (F := Ideal) (iblk m c 0 t) (iblk m c 1 t) (iblk m c 2 t) (iblk m c 3 t) j
    = logits (V m c main_arg0) (V m c main_arg1) (V m c main_arg2) (V m c main_arg3) (((cfg0.win 4).blk t).view.emb j)
  refine (payload_at (iblk m c 0 t) (iblk m c 1 t) (iblk m c 2 t) (iblk m c 3 t) j).trans ?_
  have en : ((((cfg0.win 4).blk t).view.emb j) 0).val = win0_4.index t (0 : Fin 2) * 256 + 1 * (j 0).val := rfl
  have ev : ((((cfg0.win 4).blk t).view.emb j) 1).val = win0_4.index t (1 : Fin 2) * 640 + 1 * (j 1).val := rfl
  rw [logits_apply]
  unfold entry
  exact congrArg₂ (· + ·)
    (Finset.sum_congr rfl fun d _ => congrArg₂ (· * ·)
      (hidden_block m c t (j 0) d _ (by rw [en]; omega) h1)
      (head_block m c t (j 1) d _ (by rw [ev]; omega) w1))
    (Finset.sum_congr rfl fun r _ => congrArg₂ (· * ·)
      (Finset.sum_congr rfl fun d _ => congrArg₂ (· * ·)
        (hidden_block m c t (j 0) d _ (by rw [en]; omega) h1)
        (lowrank_block m c t r d a0 a1))
      (expand_block m c t (j 1) r _ (by rw [ev]; omega) b1))

/-! ## The blocks tile the output -/

/-- An entry of the output is in point `t`'s block iff each coordinate is in the block's range on its axis. -/
theorem mem_block (t : Fin cfg0.N) (i : S2048x32000.Idx) :
    i ∈ ((cfg0.win 4).blk t).view.set ↔ ∀ a : Fin 2, win0_4.index t a * S256x640.size a ≤ (i a).val
      ∧ (i a).val < win0_4.index t a * S256x640.size a + S256x640.size a := by
  show i ∈ ((View.whole main_v0).slice (win0_4.rect t)).set ↔ _
  rw [View.set_slice_whole, Rect.mem_set_unit]
  exact Iff.rfl

/-- Entry `(n, v)` is written by the point of vocabulary tile `v / 640` and row tile `n / 256`. -/
theorem covered (i : S2048x32000.Idx) :
    ∃ t : Fin cfg0.N, (cfg0.win 4).flush t = true ∧ i ∈ ((cfg0.win 4).blk t).view.set := by
  have hi0 : (i 0).val < 2048 := (i 0).isLt
  have hi1 : (i 1).val < 32000 := (i 1).isLt
  have hN : cfg0.N = 400 := N_0
  have hlt : (i 1).val / 640 * 8 + (i 0).val / 256 < cfg0.N := by rw [hN]; omega
  obtain ⟨o0, o1, -⟩ := tile_of_point ⟨(i 1).val / 640 * 8 + (i 0).val / 256, hlt⟩
  refine ⟨⟨(i 1).val / 640 * 8 + (i 0).val / 256, hlt⟩, flush0_4 _, ?_⟩
  rw [mem_block]
  intro a
  match a with
  | ⟨0, _⟩ =>
    show win0_4.index ⟨(i 1).val / 640 * 8 + (i 0).val / 256, hlt⟩ (0 : Fin 2) * 256 ≤ (i 0).val
      ∧ (i 0).val < win0_4.index ⟨(i 1).val / 640 * 8 + (i 0).val / 256, hlt⟩ (0 : Fin 2) * 256 + 256
    rw [o0]; show ((i 1).val / 640 * 8 + (i 0).val / 256) % 8 * 256 ≤ _ ∧ _ < ((i 1).val / 640 * 8 + (i 0).val / 256) % 8 * 256 + 256; omega
  | ⟨1, _⟩ =>
    show win0_4.index ⟨(i 1).val / 640 * 8 + (i 0).val / 256, hlt⟩ (1 : Fin 2) * 640 ≤ (i 1).val
      ∧ (i 1).val < win0_4.index ⟨(i 1).val / 640 * 8 + (i 0).val / 256, hlt⟩ (1 : Fin 2) * 640 + 640
    rw [o1]; show ((i 1).val / 640 * 8 + (i 0).val / 256) / 8 * 640 ≤ _ ∧ _ < ((i 1).val / 640 * 8 + (i 0).val / 256) / 8 * 640 + 640; omega

/-! ## The output after the run -/

/-- The output array ends as the logits of the argument arrays. -/
theorem final (c : Dev nD) : (dats m 0 c).arrAt 4 cfg0.N
    = logits (V m c main_arg0) (V m c main_arg1) (V m c main_arg2) (V m c main_arg3) :=
  (dats m 0 c).arrAt_eq_of_cover 4 _ (fun t _ => flushed_eq m c t) covered

/-- The kernel's run: the result array at the logits of the arguments as launched, the arguments unchanged. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.LmHead

end
-- ==== Proof.RefValue.lean ====
import proofs.«133067_j53128745452281_1_alg».proof.Proof.Gen.ReferenceIdeal.Read
import proofs.«133067_j53128745452281_1_alg».proof.Proof.Spec

/-!
# The reference computes the logits

The reference contracts `h` with `W` over their last axes, `h` with `A` likewise, that [2048, 16] projection with `B` over
the rank axis, and adds. Each contraction, read at an entry, is the sum over the shared axis of the two operands' entries
in the same row-of-the-left, row-of-the-right position, so entry `(n, v)` of the result is the logit of `Spec` term by term.
-/

noncomputable section

namespace Cert.LmHead

open Cert.ReferenceIdeal Cert.ReferenceIdeal.Gen Cert.ReferenceIdeal.Read Idealize.ShloMosaic Idealize.ShloMosaic.ValueIdx

/-- The operand positions of the base contraction: row `n` of `h`, row `v` of `W`. -/
theorem base_lhs (i : S2048x32000.Idx) (d : Fin 4096) : lidx_main_v0 i d = ix2 (n0 := 2048) (n1 := 4096) (i 0) d :=
  funext fun a => Fin.ext (by match a with | ⟨0, _⟩ => rfl | ⟨1, _⟩ => rfl)
theorem base_rhs (i : S2048x32000.Idx) (d : Fin 4096) : ridx_main_v0 i d = ix2 (n0 := 32000) (n1 := 4096) (i 1) d :=
  funext fun a => Fin.ext (by match a with | ⟨0, _⟩ => rfl | ⟨1, _⟩ => rfl)

/-- The operand positions of the projection onto `A`: row `n` of `h`, row `r` of `A`. -/
theorem proj_lhs (j : S2048x16.Idx) (d : Fin 4096) : lidx_main_v1 j d = ix2 (n0 := 2048) (n1 := 4096) (j 0) d :=
  funext fun a => Fin.ext (by match a with | ⟨0, _⟩ => rfl | ⟨1, _⟩ => rfl)
theorem proj_rhs (j : S2048x16.Idx) (d : Fin 4096) : ridx_main_v1 j d = ix2 (n0 := 16) (n1 := 4096) (j 1) d :=
  funext fun a => Fin.ext (by match a with | ⟨0, _⟩ => rfl | ⟨1, _⟩ => rfl)

/-- The operand positions of the correction: entry `(n, r)` of the projection, entry `(v, r)` of `B`. -/
theorem corr_lhs (i : S2048x32000.Idx) (r : Fin 16) : lidx_main_v2 i r = ix2 (n0 := 2048) (n1 := 16) (i 0) r :=
  funext fun a => Fin.ext (by match a with | ⟨0, _⟩ => rfl | ⟨1, _⟩ => rfl)
theorem corr_rhs (i : S2048x32000.Idx) (r : Fin 16) : ridx_main_v2 i r = ix2 (n0 := 32000) (n1 := 16) (i 1) r :=
  funext fun a => Fin.ext (by match a with | ⟨0, _⟩ => rfl | ⟨1, _⟩ => rfl)

/-- The reference's result is the array of logits. -/
theorem reference_eq (h : FVec Ideal S2048x4096 .f32) (w : FVec Ideal S32000x4096 .f32) (a : FVec Ideal S16x4096 .f32)
    (b : FVec Ideal S32000x16 .f32) : val_main_v3 (F := Ideal) h w a b = logits h w a b := by
  funext i
  rw [val_main_v3_apply, val_main_v0_apply, val_main_v2_apply, logits_apply]
  unfold entry
  refine congrArg₂ (· + ·) (Finset.sum_congr rfl fun d _ => ?_) (Finset.sum_congr rfl fun r _ => ?_)
  · exact congrArg₂ (· * ·) (congrArg h (base_lhs i d)) (congrArg w (base_rhs i d))
  · refine congrArg₂ (· * ·) ?_ (congrArg b (corr_rhs i r))
    rw [corr_lhs, val_main_v1_apply]
    exact Finset.sum_congr rfl fun d _ => congrArg₂ (· * ·) (congrArg h (proj_lhs _ d)) (congrArg a (proj_rhs _ d))

end Cert.LmHead

end
-- ==== Proof.lean ====
/-
  A vocabulary head with a low-rank correction: `logits[n, v] = ∑ d, h[n, d] · W[v, d] + ∑ r, (∑ d, h[n, d] · A[r, d]) · B[v, r]`
  for `h : [2048, 4096]`, `W : [32000, 4096]`, `A : [16, 4096]`, `B : [32000, 16]`.

  The kernel walks a 50 × 8 grid of (vocabulary tile, row tile); at a point it contracts a [256, 4096] block of `h` with the
  transposed [640, 4096] block of `W`, the same block of `h` with the transposed `A`, that [256, 16] projection with the
  transposed [640, 16] block of `B`, adds the two [256, 640] results and stores them as one block of the output. The
  reference contracts the whole arrays over the same axes and adds. On the extended reals a change of float format is the
  identity and a contraction into zero is the plain sum of products, so both sides are the displayed expression with the
  same grouping; no further law is used, and the inputs' finiteness is not needed.

  `Spec` states the logits; `Payload` reads what the body stores at an entry; `Blocks` shows every grid point writes its
  block of the logits and that the 400 blocks tile the output; `RefValue` reads the reference's result at an entry. Here the
  two runs are set side by side. The kernel's idealization rewrote nothing, so `preserves` has no conjunct.
-/
import proofs.«133067_j53128745452281_1_alg».proof.Defs
import proofs.«133067_j53128745452281_1_alg».proof.Proof.Gen.Kernel
import proofs.«133067_j53128745452281_1_alg».proof.Proof.Gen.Kernel.Skeleton
import proofs.«133067_j53128745452281_1_alg».proof.Proof.Gen.Kernel.Launch
import proofs.«133067_j53128745452281_1_alg».proof.Proof.Gen.Kernel.Points
import proofs.«133067_j53128745452281_1_alg».proof.Proof.Gen.Kernel.Frame
import proofs.«133067_j53128745452281_1_alg».proof.Proof.Gen.KernelIdeal
import proofs.«133067_j53128745452281_1_alg».proof.Proof.Gen.KernelIdeal.Skeleton
import proofs.«133067_j53128745452281_1_alg».proof.Proof.Gen.KernelIdeal.Launch
import proofs.«133067_j53128745452281_1_alg».proof.Proof.Gen.KernelIdeal.Points
import proofs.«133067_j53128745452281_1_alg».proof.Proof.Gen.KernelIdeal.Frame
import proofs.«133067_j53128745452281_1_alg».proof.Proof.Gen.ReferenceIdeal
import proofs.«133067_j53128745452281_1_alg».proof.Proof.Gen.Pre_finite_inputs
import proofs.«133067_j53128745452281_1_alg».proof.Proof.Gen.KernelIdeal.Value
import proofs.«133067_j53128745452281_1_alg».proof.Proof.Gen.ReferenceIdeal.Run
import proofs.«133067_j53128745452281_1_alg».proof.Proof.Gen.ReferenceIdeal.Read
import proofs.«133067_j53128745452281_1_alg».proof.Proof.Blocks
import proofs.«133067_j53128745452281_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's output and the reference's result are both the array of logits. -/
theorem algebraic : Cert.algebraic_KernelIdeal_ReferenceIdeal := by
  intro m ρ m' ρ' _ hagree
  refine ⟨_, Cert.LmHead.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.LmHead.reference_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
